-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000 : Shape := ⟨1, ![150000]⟩
abbrev S64x16x3 : Shape := ⟨3, ![64, 16, 3]⟩
abbrev S_ : Shape := ⟨0, ![]⟩

class Facts : Prop where
  bcast_S_S150000 : S_.BroadcastsInDim S150000 (![] : Fin 0 → Fin S150000.rank)
  reducesTo_S150000_S_d0 : S150000.ReducesTo [0] S_
  h_S_ : 0 < S_.numel
  bcast_S_S64x16x3 : S_.BroadcastsInDim S64x16x3 (![] : Fin 0 → Fin S64x16x3.rank)
  reducesTo_S64x16x3_S_d0_1_2 : S64x16x3.ReducesTo [0, 1, 2] S_

variable [Facts]

def fn {F : FTy → Type} [FloatOps F] (main_arg0 : FVec F S150000 .f32) (main_arg1 : IVec S150000 32) (main_arg2 : FVec F S64x16x3 .f32) : IVec S_ 1 :=
  let main_v0 : FVec F S150000 .f32 := Host.absf main_arg0
  let main_cst : FVec F S_ .f32 := constant S_ .f32 0x7F800000#32
  let main_v1 : FVec F S150000 .f32 := broadcastInDim S150000 ![] bcast_S_S150000 main_cst
  let main_v2 : IVec S150000 1 := cmpf .olt main_v0 main_v1
  let main_c : IVec S_ 1 := constantI S_ 1 1#1
  let main_v3 : IVec S_ 1 := (fun x v => Host.reduce IntOp.andi x v reducesTo_S150000_S_d0 h_S_) main_v2 main_c
  let main_v4 : FVec F S64x16x3 .f32 := Host.absf main_arg2
  let main_cst_0 : FVec F S_ .f32 := constant S_ .f32 0x7F800000#32
  let main_v5 : FVec F S64x16x3 .f32 := broadcastInDim S64x16x3 ![] bcast_S_S64x16x3 main_cst_0
  let main_v6 : IVec S64x16x3 1 := cmpf .olt main_v4 main_v5
  let main_c_1 : IVec S_ 1 := constantI S_ 1 1#1
  let main_v7 : IVec S_ 1 := (fun x v => Host.reduce IntOp.andi x v reducesTo_S64x16x3_S_d0_1_2 h_S_) main_v6 main_c_1
  let main_v8 : IVec S_ 1 := andi main_v3 main_v7
  main_v8
-- ==== Kernel.lean ====
abbrev S150000 : Shape := ⟨1, ![150000]⟩
abbrev S64x16x3 : Shape := ⟨3, ![64, 16, 3]⟩
abbrev S50000x3 : Shape := ⟨2, ![50000, 3]⟩
abbrev S50000 : Shape := ⟨1, ![50000]⟩
abbrev S50000x1 : Shape := ⟨2, ![50000, 1]⟩
abbrev S50000x4 : Shape := ⟨2, ![50000, 4]⟩
abbrev S_ : Shape := ⟨0, ![]⟩
abbrev S50000x4x1 : Shape := ⟨3, ![50000, 4, 1]⟩
abbrev S50000x4x3 : Shape := ⟨3, ![50000, 4, 3]⟩
abbrev S64x16x1 : Shape := ⟨3, ![64, 16, 1]⟩
abbrev S64x16 : Shape := ⟨2, ![64, 16]⟩
abbrev S50000x64 : Shape := ⟨2, ![50000, 64]⟩
abbrev S2000x4 : Shape := ⟨2, ![2000, 4]⟩
abbrev S2000x64 : Shape := ⟨2, ![2000, 64]⟩
abbrev S2000x1 : Shape := ⟨2, ![2000, 1]⟩
abbrev S2000 : Shape := ⟨1, ![2000]⟩
abbrev S2000x1x1 : Shape := ⟨3, ![2000, 1, 1]⟩
abbrev S1x64x16 : Shape := ⟨3, ![1, 64, 16]⟩
abbrev S2000x64x16 : Shape := ⟨3, ![2000, 64, 16]⟩
abbrev S3200000 : Shape := ⟨1, ![3200000]⟩

abbrev nBuf : Space → Nat
  | .hbm => 31
  | .vmem => 11
  | .smem => 0
  | _ => 0

abbrev bufTy : (tb : Table) → Fin (tcTables nBuf tb) → BufTy
  | .hbm, ⟨0, _⟩ => ⟨S150000, .f32⟩
  | .hbm, ⟨1, _⟩ => ⟨S150000, .i32⟩
  | .hbm, ⟨2, _⟩ => ⟨S64x16x3, .f32⟩
  | .hbm, ⟨3, _⟩ => ⟨S50000x3, .f32⟩
  | .hbm, ⟨4, _⟩ => ⟨S50000x3, .i32⟩
  | .hbm, ⟨5, _⟩ => ⟨S50000, .i32⟩
  | .hbm, ⟨6, _⟩ => ⟨S50000x1, .i32⟩
  | .hbm, ⟨7, _⟩ => ⟨S50000x4, .i32⟩
  | .hbm, ⟨8, _⟩ => ⟨S_, .i32⟩
  | .hbm, ⟨9, _⟩ => ⟨S50000x4, .i32⟩
  | .hbm, ⟨10, _⟩ => ⟨S50000x4, .i1⟩
  | .hbm, ⟨11, _⟩ => ⟨S_, .i32⟩
  | .hbm, ⟨12, _⟩ => ⟨S50000x4, .i32⟩
  | .hbm, ⟨13, _⟩ => ⟨S50000x4, .i32⟩
  | .hbm, ⟨14, _⟩ => ⟨S50000x4, .i32⟩
  | .hbm, ⟨15, _⟩ => ⟨S50000x4x1, .i32⟩
  | .hbm, ⟨16, _⟩ => ⟨S50000x4x3, .f32⟩
  | .hbm, ⟨17, _⟩ => ⟨S50000x4x1, .f32⟩
  | .hbm, ⟨18, _⟩ => ⟨S50000x4, .f32⟩
  | .hbm, ⟨19, _⟩ => ⟨S50000x4x1, .f32⟩
  | .hbm, ⟨20, _⟩ => ⟨S50000x4, .f32⟩
  | .hbm, ⟨21, _⟩ => ⟨S50000x4x1, .f32⟩
  | .hbm, ⟨22, _⟩ => ⟨S50000x4, .f32⟩
  | .hbm, ⟨23, _⟩ => ⟨S64x16x1, .f32⟩
  | .hbm, ⟨24, _⟩ => ⟨S64x16, .f32⟩
  | .hbm, ⟨25, _⟩ => ⟨S64x16x1, .f32⟩
  | .hbm, ⟨26, _⟩ => ⟨S64x16, .f32⟩
  | .hbm, ⟨27, _⟩ => ⟨S64x16x1, .f32⟩
  | .hbm, ⟨28, _⟩ => ⟨S64x16, .f32⟩
  | .hbm, ⟨29, _⟩ => ⟨S50000x64, .f32⟩
  | .hbm, ⟨30, _⟩ => ⟨S3200000, .f32⟩
  | .local _ .vmem, ⟨0, _⟩ => ⟨S2000x4, .f32⟩
  | .local _ .vmem, ⟨1, _⟩ => ⟨S2000x4, .f32⟩
  | .local _ .vmem, ⟨2, _⟩ => ⟨S2000x4, .f32⟩
  | .local _ .vmem, ⟨3, _⟩ => ⟨S2000x4, .f32⟩
  | .local _ .vmem, ⟨4, _⟩ => ⟨S2000x4, .f32⟩
  | .local _ .vmem, ⟨5, _⟩ => ⟨S2000x4, .f32⟩
  | .local _ .vmem, ⟨6, _⟩ => ⟨S64x16, .f32⟩
  | .local _ .vmem, ⟨7, _⟩ => ⟨S64x16, .f32⟩
  | .local _ .vmem, ⟨8, _⟩ => ⟨S64x16, .f32⟩
  | .local _ .vmem, ⟨9, _⟩ => ⟨S2000x64, .f32⟩
  | .local _ .vmem, ⟨10, _⟩ => ⟨S2000x64, .f32⟩
  | _, _ => ⟨S150000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S150000_S50000x3 : S150000.ShapeCasts S50000x3
  bcast_S50000_S50000x1_0 : S50000.BroadcastsInDim S50000x1 (![0] : Fin 1 → Fin S50000x1.rank)
  concatenates_S50000x1_S50000x3_S50000x4_d1 : Shape.Concatenates [S50000x1, S50000x3] S50000x4 1
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  slices_S50000x4x3_S50000x4x1_0_0_0 : S50000x4x3.Slices ![0, 0, 0] S50000x4x1
  shapeCasts_S50000x4x1_S50000x4 : S50000x4x1.ShapeCasts S50000x4
  slices_S50000x4x3_S50000x4x1_0_0_1 : S50000x4x3.Slices ![0, 0, 1] S50000x4x1
  slices_S50000x4x3_S50000x4x1_0_0_2 : S50000x4x3.Slices ![0, 0, 2] S50000x4x1
  slices_S64x16x3_S64x16x1_0_0_0 : S64x16x3.Slices ![0, 0, 0] S64x16x1
  shapeCasts_S64x16x1_S64x16 : S64x16x1.ShapeCasts S64x16
  slices_S64x16x3_S64x16x1_0_0_1 : S64x16x3.Slices ![0, 0, 1] S64x16x1
  slices_S64x16x3_S64x16x1_0_0_2 : S64x16x3.Slices ![0, 0, 2] S64x16x1
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  slices_S2000x4_o0_0_S2000x1 : S2000x4.Slices ![0, 0] S2000x1
  shapeCasts_S2000x1_S2000 : S2000x1.ShapeCasts S2000
  shapeCasts_S2000_S2000x1x1 : S2000.ShapeCasts S2000x1x1
  shapeCasts_S64x16_S1x64x16 : S64x16.ShapeCasts S1x64x16
  broadcasts_S2000x1x1_S2000x64x16 : S2000x1x1.Broadcasts S2000x64x16
  broadcasts_S1x64x16_S2000x64x16 : S1x64x16.Broadcasts S2000x64x16
  reduces_S2000x64x16_S2000x64 : S2000x64x16.Reduces [2] S2000x64
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  inb_S2000x64_S2000x64_0_0 : ∀ a, (![0, 0] : Fin 2 → Nat) a + S2000x64.size a ≤ S2000x64.size a
  h_S2000x64 : 0 < S2000x64.numel
  shapeCasts_S50000x64_S3200000 : S50000x64.ShapeCasts S3200000
  gather_S50000x3_S50000x4x1_S50000x4x3_2_0_n_n_0_2_13_wf : GatherDims.WF S50000x3 S50000x4x1 S50000x4x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S50000x4.size a
  hwx0_0 : ∀ i : grid0.Coords, EltTy.bits .f32 = 32 ∨ (Rect.block (s := S50000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S50000x4.size a
  hwx0_1 : ∀ i : grid0.Coords, EltTy.bits .f32 = 32 ∨ (Rect.block (s := S50000x4) S2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S50000x4.size a
  hwx0_2 : ∀ i : grid0.Coords, EltTy.bits .f32 = 32 ∨ (Rect.block (s := S50000x4) S2000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)

variable [Facts₀]

def gather_S50000x3_S50000x4x1_S50000x4x3_2_0_n_n_0_2_13 : GatherDims S50000x3 S50000x4x1 S50000x4x3 where
  offsetDims := [2]
  collapsedSliceDims := [0]
  operandBatchingDims := []
  startIndicesBatchingDims := []
  startIndexMap := [0]
  indexVectorDim := 2
  sliceSizes := ![1, 3]
  wf := gather_S50000x3_S50000x4x1_S50000x4x3_2_0_n_n_0_2_13_wf

abbrev win0_0 : Pipeline.Window sig grid0 :=
  Pipeline.Window.ofSpec (Memref.whole main_v13) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S150000 : Shape := ⟨1, ![150000]⟩
abbrev S64x16x3 : Shape := ⟨3, ![64, 16, 3]⟩
abbrev S50000x3 : Shape := ⟨2, ![50000, 3]⟩
abbrev S50000 : Shape := ⟨1, ![50000]⟩
abbrev S50000x1 : Shape := ⟨2, ![50000, 1]⟩
abbrev S50000x4 : Shape := ⟨2, ![50000, 4]⟩
abbrev S_ : Shape := ⟨0, ![]⟩
abbrev S50000x4x1 : Shape := ⟨3, ![50000, 4, 1]⟩
abbrev S50000x4x3 : Shape := ⟨3, ![50000, 4, 3]⟩
abbrev S50000x4x1x1 : Shape := ⟨4, ![50000, 4, 1, 1]⟩
abbrev S64x16 : Shape := ⟨2, ![64, 16]⟩
abbrev S50000x4x64x16 : Shape := ⟨4, ![50000, 4, 64, 16]⟩
abbrev S1x1x64x16 : Shape := ⟨4, ![1, 1, 64, 16]⟩
abbrev S50000x64 : Shape := ⟨2, ![50000, 64]⟩
abbrev S3200000 : Shape := ⟨1, ![3200000]⟩

abbrev nBuf : Space → Nat
  | .hbm => 44
  | .vmem => 0
  | .smem => 0
  | _ => 0

abbrev bufTy : (tb : Table) → Fin (tcTables nBuf tb) → BufTy
  | .hbm, ⟨0, _⟩ => ⟨S150000, .f32⟩
  | .hbm, ⟨1, _⟩ => ⟨S150000, .i32⟩
  | .hbm, ⟨2, _⟩ => ⟨S64x16x3, .f32⟩
  | .hbm, ⟨3, _⟩ => ⟨S50000x3, .f32⟩
  | .hbm, ⟨4, _⟩ => ⟨S50000x3, .i32⟩
  | .hbm, ⟨5, _⟩ => ⟨S50000, .i32⟩
  | .hbm, ⟨6, _⟩ => ⟨S50000x1, .i32⟩
  | .hbm, ⟨7, _⟩ => ⟨S50000x4, .i32⟩
  | .hbm, ⟨8, _⟩ => ⟨S_, .i32⟩
  | .hbm, ⟨9, _⟩ => ⟨S50000x4, .i32⟩
  | .hbm, ⟨10, _⟩ => ⟨S50000x4, .i1⟩
  | .hbm, ⟨11, _⟩ => ⟨S_, .i32⟩
  | .hbm, ⟨12, _⟩ => ⟨S50000x4, .i32⟩
  | .hbm, ⟨13, _⟩ => ⟨S50000x4, .i32⟩
  | .hbm, ⟨14, _⟩ => ⟨S50000x4, .i32⟩
  | .hbm, ⟨15, _⟩ => ⟨S50000x4x1, .i32⟩
  | .hbm, ⟨16, _⟩ => ⟨S50000x4x3, .f32⟩
  | .hbm, ⟨17, _⟩ => ⟨S50000x4x3, .f32⟩
  | .hbm, ⟨18, _⟩ => ⟨S_, .f32⟩
  | .hbm, ⟨19, _⟩ => ⟨S50000x4, .f32⟩
  | .hbm, ⟨20, _⟩ => ⟨S50000x4x1x1, .f32⟩
  | .hbm, ⟨21, _⟩ => ⟨S64x16x3, .f32⟩
  | .hbm, ⟨22, _⟩ => ⟨S_, .f32⟩
  | .hbm, ⟨23, _⟩ => ⟨S64x16, .f32⟩
  | .hbm, ⟨24, _⟩ => ⟨S50000x4x64x16, .f32⟩
  | .hbm, ⟨25, _⟩ => ⟨S1x1x64x16, .f32⟩
  | .hbm, ⟨26, _⟩ => ⟨S50000x4x64x16, .f32⟩
  | .hbm, ⟨27, _⟩ => ⟨S50000x4x64x16, .f32⟩
  | .hbm, ⟨28, _⟩ => ⟨S50000x4x64x16, .f32⟩
  | .hbm, ⟨29, _⟩ => ⟨S_, .f32⟩
  | .hbm, ⟨30, _⟩ => ⟨S50000x4x64x16, .f32⟩
  | .hbm, ⟨31, _⟩ => ⟨S50000x4x64x16, .f32⟩
  | .hbm, ⟨32, _⟩ => ⟨S50000x4x64x16, .f32⟩
  | .hbm, ⟨33, _⟩ => ⟨S50000x4x64x16, .f32⟩
  | .hbm, ⟨34, _⟩ => ⟨S50000x4x64x16, .f32⟩
  | .hbm, ⟨35, _⟩ => ⟨S_, .f32⟩
  | .hbm, ⟨36, _⟩ => ⟨S50000x4x64x16, .f32⟩
  | .hbm, ⟨37, _⟩ => ⟨S50000x4x64x16, .f32⟩
  | .hbm, ⟨38, _⟩ => ⟨S_, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S3200000, .f32⟩
  | _, _ => ⟨S150000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  shapeCasts_S150000_S50000x3 : S150000.ShapeCasts S50000x3
  bcast_S50000_S50000x1_0 : S50000.BroadcastsInDim S50000x1 (![0] : Fin 1 → Fin S50000x1.rank)
  concatenates_S50000x1_S50000x3_S50000x4_d1 : Shape.Concatenates [S50000x1, S50000x3] S50000x4 1
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  reducesTo_S50000x4x3_S50000x4_d2 : S50000x4x3.ReducesTo [2] S50000x4
  h_S_ : 0 < S_.numel
  bcast_S50000x4_S50000x4x1x1_0_1 : S50000x4.BroadcastsInDim S50000x4x1x1 (![0, 1] : Fin 2 → Fin S50000x4x1x1.rank)
  reducesTo_S64x16x3_S64x16_d2 : S64x16x3.ReducesTo [2] S64x16
  bcast_S64x16_S1x1x64x16_2_3 : S64x16.BroadcastsInDim S1x1x64x16 (![2, 3] : Fin 2 → Fin S1x1x64x16.rank)
  bcast_S50000x4x1x1_S50000x4x64x16_0_1_2_3 : S50000x4x1x1.BroadcastsInDim S50000x4x64x16 (![0, 1, 2, 3] : Fin 4 → Fin S50000x4x64x16.rank)
  bcast_S1x1x64x16_S50000x4x64x16_0_1_2_3 : S1x1x64x16.BroadcastsInDim S50000x4x64x16 (![0, 1, 2, 3] : Fin 4 → Fin S50000x4x64x16.rank)
  bcast_S_S50000x4x64x16 : S_.BroadcastsInDim S50000x4x64x16 (![] : Fin 0 → Fin S50000x4x64x16.rank)
  reducesTo_S50000x4x64x16_S50000x64_d1_3 : S50000x4x64x16.ReducesTo [1, 3] S50000x64
  bcast_S_S50000x64 : S_.BroadcastsInDim S50000x64 (![] : Fin 0 → Fin S50000x64.rank)
  shapeCasts_S50000x64_S3200000 : S50000x64.ShapeCasts S3200000
  gather_S50000x3_S50000x4x1_S50000x4x3_2_0_n_n_0_2_13_wf : GatherDims.WF S50000x3 S50000x4x1 S50000x4x3 [2] [0] [] [0] [] 2 ![1, 3]
  dot_S50000x4x3_S64x16x3_S50000x4x64x16_2_2_01_01_n_n_wf : DotDims.WF S50000x4x3 S64x16x3 S50000x4x64x16 [2] [2] [0, 1] [0, 1] [] []

variable [Facts₀]

def gather_S50000x3_S50000x4x1_S50000x4x3_2_0_n_n_0_2_13 : GatherDims S50000x3 S50000x4x1 S50000x4x3 where
  offsetDims := [2]
  collapsedSliceDims := [0]
  operandBatchingDims := []
  startIndicesBatchingDims := []
  startIndexMap := [0]
  indexVectorDim := 2
  sliceSizes := ![1, 3]
  wf := gather_S50000x3_S50000x4x1_S50000x4x3_2_0_n_n_0_2_13_wf
def dot_S50000x4x3_S64x16x3_S50000x4x64x16_2_2_01_01_n_n : DotDims S50000x4x3 S64x16x3 S50000x4x64x16 where
  lhsContracting := [2]
  rhsContracting := [2]
  lhsNonContracting := [0, 1]
  rhsNonContracting := [0, 1]
  lhsBatch := []
  rhsBatch := []
  wf := dot_S50000x4x3_S64x16x3_S50000x4x64x16_2_2_01_01_n_n_wf

class Facts : Prop extends Facts₀ where

variable [Facts]
-- ==== Proof.LibReadAt.lean ====
/-
  Layout operations and sums read at an index, for shapes of rank one to four written by coordinates
  (no program is imported).

  * column `o` of an `[a, n]` matrix, cut out as `[a, 1]` and viewed as `[a]`, reads the matrix at `(i, o)`;
  * entry `o` along the last axis of an `[a, b, n]` array, cut out as `[a, b, 1]` and viewed as `[a, b]`, reads the
    array at `(i, j, o)`;
  * a column vector `[a, 1]` viewed as `[a]`, and a vector `[a]` viewed as `[a, 1, 1]`: a shape cast
    keeps the row-major position, and a unit axis contributes nothing to it;
  * `[a, 1, 1]` broadcast to `[a, b, c]` reads the operand's entry of the leading coordinate;
    `[1, b, c]` broadcast to `[a, b, c]` reads the operand's entry of the two trailing coordinates;
  * the sum of a rank-3 array over its last axis, at `(i, j)`, is the sum over `k` of the entries `(i, j, k)`;
  * the host's sum of a rank-4 array over axes 1 and 3, at `(i, k)`, is the initial value plus the double sum
    over `(j, l)` of the entries `(i, j, k, l)`: the indices that drop to `(i, k)` are exactly those, one for
    each pair `(j, l)`.
-/
import Idealize.ShloMosaic.PureOps.Ideal.Laws
import Idealize.ShloMosaic.Lib.ValueIdx
import Idealize.ShloMosaic.Lib.Pipeline.Value
import Idealize.ShloMosaic.Lib.ValueLayout

noncomputable section

namespace Cert.LibReadAt

open Idealize.ShloMosaic Idealize.ShloMosaic.ValueIdx

variable {α : Type}

/-- A column `[a, 1]` cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A unit-wide cut of an `[a, n]` matrix along its columns starts inside the matrix. -/
theorem column_lt {a n o : ℕ} (hs : (⟨2, ![a, n]⟩ : Shape).Slices ![0, o] ⟨2, ![a, 1]⟩) : o < n := hs.2 (1 : Fin 2)

/-- Column `o` of an `[a, n]` matrix, cut out as `[a, 1]` and cast to `[a]`, reads at `i` the matrix at `(i, o)`. -/
theorem column_apply {a n : ℕ} (o : ℕ) (X : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩) (i : Fin a) :
    shapeCast ⟨1, ![a]⟩ (extractStridedSlice ⟨2, ![a, 1]⟩ ![0, o] X hs) hc (ix1 i) = X (ix2 i ⟨o, column_lt hs⟩) :=
  (shapeCast_a1_a_apply _ hc i).trans (slice2_axis1_apply o X hs i (0 : Fin 1) ⟨o, column_lt hs⟩ rfl)

/-- A unit-wide cut of an `[a, b, n]` array along its last axis starts inside the array. -/
theorem lastcut3_lt {a b n o : ℕ} (hs : (⟨3, ![a, b, n]⟩ : Shape).Slices ![0, 0, o] ⟨3, ![a, b, 1]⟩) : o < n :=
  hs.2 (2 : Fin 3)

/-- Entry `o` along the last axis of an `[a, b, n]` array, cut out as `[a, b, 1]` and cast to `[a, b]`, reads at `(i, j)`
    the array at `(i, j, o)`. -/
theorem lastcut3_apply {a b n : ℕ} (o : ℕ) (X : (⟨3, ![a, b, n]⟩ : Shape).Idx → α)
    (hs : (⟨3, ![a, b, n]⟩ : Shape).Slices ![0, 0, o] ⟨3, ![a, b, 1]⟩)
    (hc : (⟨3, ![a, b, 1]⟩ : Shape).ShapeCasts ⟨2, ![a, b]⟩) (i : Fin a) (j : Fin b) :
    shapeCast ⟨2, ![a, b]⟩ (extractStridedSlice ⟨3, ![a, b, 1]⟩ ![0, 0, o] X hs) hc (ix2 i j)
      = X (ix3 i j ⟨o, lastcut3_lt hs⟩) :=
  (shapeCast_apply _ hc (ix2 i j) (ix3 i j (0 : Fin 1)) (by
    rw [Shape.rowMajor_val_three, Shape.rowMajor_val_two]
    show (i.val * b + j.val) * 1 + 0 = i.val * b + j.val
    omega)).trans
  (extractStridedSlice_apply _ X hs (ix3 i j (0 : Fin 1)) (ix3 i j ⟨o, lastcut3_lt hs⟩) (fun ax => by
    match ax with
    | ⟨0, _⟩ => exact (Nat.zero_add _).symm
    | ⟨1, _⟩ => exact (Nat.zero_add _).symm
    | ⟨2, _⟩ => rfl))

/-- The exponential of a vector read at an index, at the ideal values. -/
theorem exp_apply {s : Shape} {φ : FTy} (v : FVec Ideal s φ) (i : s.Idx) : exp v i = Ideal.exp (v i) := rfl

/-- A vector `[a]` cast to `[a, 1, 1]` reads, at `(i, u, v)`, the operand at `i`. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- `[a, 1, 1]` broadcast to `[a, b, c]` reads, at `(i, j, k)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- `[1, b, c]` broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The sum of an f32 `[a, b, c]` array over its last axis (accumulator word zero), read at the ideal values at `(i, j)`,
    is the sum over `k` of the entries `(i, j, k)`. -/
theorem multiReduction_add_last3 {a b c : ℕ} (src : FVec Ideal ⟨3, ![a, b, c]⟩ .f32)
    (h : (⟨3, ![a, b, c]⟩ : Shape).Reduces [2] ⟨2, ![a, b]⟩) (hφ : FTy.f32 = FTy.f32 ∨ FTy.f32 = FTy.bf16)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c, d]` array over axes 1 and 3, read at the ideal values at `(i, k)`, is the initial
    value plus the sum over `j` and `l` of the entries `(i, j, k, l)`. -/
theorem hostReduceAdd_axes13 {a b c d : ℕ} (h : (⟨4, ![a, b, c, d]⟩ : Shape).ReducesTo [1, 3] ⟨2, ![a, c]⟩)
    (x : (⟨4, ![a, b, c, d]⟩ : Shape).Idx → EReal) (init : EReal) (i : Fin a) (k : Fin c) :
    Ideal.hostReduceAdd h x init (ix2 i k) = init + ∑ j : Fin b, ∑ l : Fin d, x (ix4 i j k l) := by
  unfold Ideal.hostReduceAdd
  refine congrArg (init + ·) ?_
  rw [← Fintype.sum_prod_type' (f := fun j l => x (ix4 i j k l))]
  have h0 : ∀ y : (⟨4, ![a, b, c, d]⟩ : Shape).Idx, (h.drop y 0 : ℕ) = (y 0).val := fun _ => rfl
  have h1 : ∀ y : (⟨4, ![a, b, c, d]⟩ : Shape).Idx, (h.drop y 1 : ℕ) = (y 2).val := fun _ => rfl
  symm
  refine Finset.sum_nbij' (fun jl : Fin b × Fin d => ix4 i jl.1 k jl.2) (fun y => ((y 1 : Fin b), (y 3 : Fin d)))
    ?_ ?_ ?_ ?_ ?_
  · intro jl _
    rw [Finset.mem_filter]
    refine ⟨Finset.mem_univ _, funext fun ax => Fin.ext ?_⟩
    match ax with
    | ⟨0, _⟩ => exact h0 _
    | ⟨1, _⟩ => exact h1 _
  · intro y _; exact Finset.mem_univ _
  · intro jl _; rfl
  · intro y hy
    rw [Finset.mem_filter] at hy
    have e0 : (y 0).val = i.val := (h0 y).symm.trans (congrArg Fin.val (congrFun hy.2 0))
    have e1 : (y 2).val = k.val := (h1 y).symm.trans (congrArg Fin.val (congrFun hy.2 1))
    funext ax
    apply Fin.ext
    match ax with
    | ⟨0, _⟩ => exact e0.symm
    | ⟨1, _⟩ => rfl
    | ⟨2, _⟩ => exact e1.symm
    | ⟨3, _⟩ => rfl
  · intro jl _; rfl

end Cert.LibReadAt

end
-- ==== Proof.Spec.lean ====
/-
  The correlation of a point's four gathered normals with a table of sixteen kernel points, as one real-valued
  formula, and the two arrangements of it that the two programs compute (no program is imported).

  For gathered normals g(p, ·) ∈ ℝ³ (p < 4: the point itself and its three neighbours) and kernel points
  k(l, ·) ∈ ℝ³ (l < 16) the value is

      (1/64) · Σ_p Σ_l  exp(−(|g_p|² + |k_l|² − 2 g_p·k_l)) · (1/2),

  the squared distance |g_p − k_l|² written by its expansion. One program adds the four inner sums one after the
  other onto zero, writes the negation as 0 − x, and multiplies by the dyadic constants 1/2 and 1/64; the other
  takes the double sum at once from zero, writes each squared norm and each dot product as zero plus a sum over the
  three coordinates, and divides by 2 and by 64. On the extended reals a sum is associative and commutative,
  0 − x = −x, and dividing by a nonzero real is multiplying by its reciprocal, so the two arrangements agree at
  every extended-real input; no finiteness is used.
-/
import Idealize.ShloMosaic.PureOps.Ideal.Laws

noncomputable section

namespace Cert.Corr

open Idealize.ShloMosaic

/-! ## The four constants -/

theorem two_eq : Ideal.ofBits .f32 0x40000000#32 = ((2 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem sixtyfour_eq : Ideal.ofBits .f32 0x42800000#32 = ((64 : ℝ) : EReal) := by
  simp [Ideal.ofBits, Ideal.ieee, -EReal.coe_mul]; norm_num
theorem inv64_eq : Ideal.ofBits .f32 0x3C800000#32 = ((1 / 64 : ℝ) : EReal) := by
  simp [Ideal.ofBits, Ideal.ieee, -EReal.coe_mul]; norm_num

/-! ## The value -/

/-- One summand: exp(−(|g|² + |k|² − 2 g·k)) · (1/2) for a normal (gx, gy, gz) and a kernel point (kx, ky, kz). -/
def term (gx gy gz kx ky kz : EReal) : EReal :=
  Ideal.exp (-((((gx * gx + gy * gy) + gz * gz) + ((kx * kx + ky * ky) + kz * kz))
      - ((2 : ℝ) : EReal) * ((gx * kx + gy * ky) + gz * kz))) * ((1 / 2 : ℝ) : EReal)

/-- The value at one (point, kernel) pair: the double sum over the four normals and the sixteen kernel points, over 64. -/
def point (g : Fin 4 → Fin 3 → EReal) (k : Fin 16 → Fin 3 → EReal) : EReal :=
  (∑ p : Fin 4, ∑ l : Fin 16, term (g p 0) (g p 1) (g p 2) (k l 0) (k l 1) (k l 2)) * ((1 / 64 : ℝ) : EReal)

/-! ## The arrangement that adds the four inner sums one after the other -/

/-- The summand with the negation written 0 − x and the constants as f32 words. -/
theorem term_of_zero_sub (gx gy gz kx ky kz : EReal) :
    Ideal.exp (Ideal.ofBits .f32 0x00000000#32 - ((((gx * gx + gy * gy) + gz * gz) + ((kx * kx + ky * ky) + kz * kz))
        - Ideal.ofBits .f32 0x40000000#32 * ((gx * kx + gy * ky) + gz * kz))) * Ideal.ofBits .f32 0x3F000000#32
      = term gx gy gz kx ky kz := by
  rw [Ideal.ofBits_zero_f32, zero_sub, two_eq, half_eq]; rfl

/-- Four inner sums added one after the other onto zero, then scaled by the word of 1/64. -/
theorem point_of_chain (g : Fin 4 → Fin 3 → EReal) (k : Fin 16 → Fin 3 → EReal) (S : Fin 4 → EReal)
    (hS : ∀ p, S p = ∑ l : Fin 16, term (g p 0) (g p 1) (g p 2) (k l 0) (k l 1) (k l 2)) :
    ((((Ideal.ofBits .f32 0x00000000#32 + S 0) + S 1) + S 2) + S 3) * Ideal.ofBits .f32 0x3C800000#32 = point g k := by
  rw [Ideal.ofBits_zero_f32, zero_add, inv64_eq, point, Fin.sum_univ_four, hS 0, hS 1, hS 2, hS 3]

/-! ## The arrangement that takes the double sum at once and divides -/

/-- The summand with each squared norm and the dot product as zero plus a sum over the three coordinates,
    the negation as −x, the halving as a division by the word of 2. -/
theorem term_of_sums (g k : Fin 3 → EReal) :
    Ideal.div (Ideal.exp (-(((Ideal.ofBits .f32 0x00000000#32 + ∑ d : Fin 3, g d * g d)
        + (Ideal.ofBits .f32 0x00000000#32 + ∑ d : Fin 3, k d * k d))
        - Ideal.ofBits .f32 0x40000000#32 * ∑ d : Fin 3, g d * k d))) (Ideal.ofBits .f32 0x40000000#32)
      = term (g 0) (g 1) (g 2) (k 0) (k 1) (k 2) := by
  rw [Ideal.ofBits_zero_f32, zero_add, zero_add, two_eq, Ideal.div_coe (by norm_num : (2 : ℝ) ≠ 0),
    Fin.sum_univ_three, Fin.sum_univ_three, Fin.sum_univ_three]
  rfl

/-- The double sum from zero, divided by the word of 64. -/
theorem point_of_div (g : Fin 4 → Fin 3 → EReal) (k : Fin 16 → Fin 3 → EReal) (T : Fin 4 → Fin 16 → EReal)
    (hT : ∀ p l, T p l = term (g p 0) (g p 1) (g p 2) (k l 0) (k l 1) (k l 2)) :
    Ideal.div (Ideal.ofBits .f32 0x00000000#32 + ∑ p : Fin 4, ∑ l : Fin 16, T p l) (Ideal.ofBits .f32 0x42800000#32)
      = point g k := by
  rw [Ideal.ofBits_zero_f32, zero_add, sixtyfour_eq, Ideal.div_coe (by norm_num : (64 : ℝ) ≠ 0), point]
  exact congrArg (· * _) (Finset.sum_congr rfl fun p _ => Finset.sum_congr rfl fun l _ => hT p l)

end Cert.Corr

end
-- ==== Proof.KerPoint.lean ====
/-
  What the kernel body leaves in its output block, at one entry, read at the ideal values: for the block's row r
  (a point of the block) and column mm (a kernel), the correlation `Corr.point` of the four gathered normals of that
  row — columns 0 … 3 of the three coordinate blocks — with the sixteen kernel points of kernel mm, read off the three
  coordinate tables.

  The body takes column p of each coordinate block, forms |g_p|² and, broadcast against the tables, the dot products
  g_p·k and the distances, exponentiates, halves, sums over the sixteen kernel points, and adds the four sums one
  after the other onto a zero block before scaling by 1/64. Every operation is pointwise but the column cuts, the
  broadcasts and the sum over the last axis, each read at an index by a layout lemma.
-/
import proofs.«100783_j61667140436412_1_alg».proof.Proof.Gen.KernelIdeal.Frame
import proofs.«100783_j61667140436412_1_alg».proof.Proof.LibReadAt
import proofs.«100783_j61667140436412_1_alg».proof.Proof.Spec

noncomputable section

namespace Cert.KernelIdeal.Hand

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

/-- The output block at (r, mm), from the six input blocks. -/
theorem out_apply (x0 x1 x2 : Vec Ideal S2000x4 .f32) (x3 x4 x5 : Vec Ideal S64x16 .f32) (r : Fin 2000) (mm : Fin 64) :
    out0_6 (F := Ideal) x0 x1 x2 x3 x4 x5 (ix2 r mm)
      = Cert.Corr.point (fun p => ![x0 (ix2 r p), x1 (ix2 r p), x2 (ix2 r p)])
          (fun l => ![x3 (ix2 mm l), x4 (ix2 mm l), x5 (ix2 mm l)]) := by
  unfold out0_6
  rw [View.canon_unit_zero hz]
  simp only [View.ld_unit_zero (S := S64x16) hz, View.ld_unit_zero (S := S2000x4) hz]
  unfold k0_pay1 k0_pay17 k0_pay16 k0_pay15 k0_pay14 k0_pay13 k0_pay12 k0_pay11 k0_pay10 k0_pay9 k0_pay8 k0_pay7
    k0_pay6 k0_pay5 k0_pay4 k0_pay3 k0_pay2 k0_pay21 k0_pay18 k0_pay19 k0_pay20
  simp only [shapeCast_self, mulf_apply, addf_apply, broadcast_apply, Ideal.ofBits_def]
  rw [Cert.LibReadAt.multiReduction_add_last3, Cert.LibReadAt.multiReduction_add_last3,
    Cert.LibReadAt.multiReduction_add_last3, Cert.LibReadAt.multiReduction_add_last3]
  simp only [mulf_apply, addf_apply, subf_apply, broadcast_apply, Cert.LibReadAt.exp_apply,
    Cert.LibReadAt.broadcastTo_a11_abc_apply, Cert.LibReadAt.broadcastTo_1bc_abc_apply,
    Cert.LibReadAt.shapeCast_a_a11_apply, shapeCast_ab_1ab_apply, Cert.LibReadAt.column_apply]
  exact Cert.Corr.point_of_chain (fun p => ![x0 (ix2 r p), x1 (ix2 r p), x2 (ix2 r p)])
    (fun l => ![x3 (ix2 mm l), x4 (ix2 mm l), x5 (ix2 mm l)])
    (fun p => ∑ k : Fin 16, Ideal.exp (Ideal.ofBits .f32 0x00000000#32
        - ((x0 (ix2 r p) * x0 (ix2 r p) + x1 (ix2 r p) * x1 (ix2 r p) + x2 (ix2 r p) * x2 (ix2 r p)
            + (x3 (ix2 mm k) * x3 (ix2 mm k) + x4 (ix2 mm k) * x4 (ix2 mm k) + x5 (ix2 mm k) * x5 (ix2 mm k)))
          - Ideal.ofBits .f32 0x40000000#32
            * (x0 (ix2 r p) * x3 (ix2 mm k) + x1 (ix2 r p) * x4 (ix2 mm k) + x2 (ix2 r p) * x5 (ix2 mm k))))
      * Ideal.ofBits .f32 0x3F000000#32)
    (fun p => Finset.sum_congr rfl fun l _ => Cert.Corr.term_of_zero_sub _ _ _ _ _ _)

end Cert.KernelIdeal.Hand

end
-- ==== Proof.KerArray.lean ====
/-
  The kernel program's result after the run, read at the ideal values.

  The region's grid has 25 points; point t stages rows 2000·t … 2000·t + 1999 of the three coordinate arrays
  (each [n, 4]: column p is neighbour p's coordinate) and the whole of the three coordinate tables (each [64, 16]),
  and writes back rows 2000·t … 2000·t + 1999 of the [n, 64] result. What it writes at (row r of the block, kernel mm)
  is the correlation of the gathered normals of point 2000·t + r with kernel mm, so every block is the restriction
  of ONE function of the array index, `result2`; the 25 blocks tile the result (row i lies in block i / 2000), so the
  array ends at `result2`. The one host operation after the region views it as a flat vector.
-/
import proofs.«100783_j61667140436412_1_alg».proof.Proof.KerPoint
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The six arrays the region reads, and their blocks at a point -/

/-- The x, y, z coordinates of the gathered normals, [n, 4] each, as the region finds them. -/
abbrev gxA (c : Dev nD) : Vec Ideal S50000x4 .f32 := V m c main_v13
abbrev gyA (c : Dev nD) : Vec Ideal S50000x4 .f32 := V m c main_v15
abbrev gzA (c : Dev nD) : Vec Ideal S50000x4 .f32 := V m c main_v17
/-- The x, y, z coordinates of the kernel points, [64, 16] each. -/
abbrev kxA (c : Dev nD) : Vec Ideal S64x16 .f32 := V m c main_v19
abbrev kyA (c : Dev nD) : Vec Ideal S64x16 .f32 := V m c main_v21
abbrev kzA (c : Dev nD) : Vec Ideal S64x16 .f32 := V m c main_v23

/-- Their blocks at grid point t. -/
abbrev gxB (c : Dev nD) (t : Fin cfg0.N) : Vec Ideal S2000x4 .f32 := iblk m c 0 t
abbrev gyB (c : Dev nD) (t : Fin cfg0.N) : Vec Ideal S2000x4 .f32 := iblk m c 1 t
abbrev gzB (c : Dev nD) (t : Fin cfg0.N) : Vec Ideal S2000x4 .f32 := iblk m c 2 t
abbrev kxB (c : Dev nD) (t : Fin cfg0.N) : Vec Ideal S64x16 .f32 := iblk m c 3 t
abbrev kyB (c : Dev nD) (t : Fin cfg0.N) : Vec Ideal S64x16 .f32 := iblk m c 4 t
abbrev kzB (c : Dev nD) (t : Fin cfg0.N) : Vec Ideal S64x16 .f32 := iblk m c 5 t

/-- The block indices over the grid: the coordinate windows and the result window move along the rows with the
    point; the table windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of point t's block of a coordinate array is row 2000·t + r of the array. -/
theorem gxB_apply (c : Dev nD) (t : Fin cfg0.N) (r : Fin 2000) (p : Fin 4) (n : Fin 50000)
    (hn : n.val = t.val * 2000 + r.val) : gxB m c t (ix2 r p) = gxA m c (ix2 n p) := by
  obtain ⟨e0, e1, -⟩ := idx_facts t
  show ((cfg0.win 0).blk t).view.read (Elt Ideal) (V m c (Pipeline.arrRef spec0 0)) (ix2 r p) = V m c main_v13 (ix2 n p)
  rw [View.read_apply]
  show V m c main_v13 _ = V m c main_v13 _
  refine congrArg (V m c main_v13) (funext fun a => Fin.ext ?_)
  match a with
  | ⟨0, _⟩ => show win0_0.index t (0 : Fin 2) * 2000 + 1 * r.val = n.val; rw [e0, hn]; omega
  | ⟨1, _⟩ => show win0_0.index t (1 : Fin 2) * 4 + 1 * p.val = p.val; rw [e1]; omega

theorem gyB_apply (c : Dev nD) (t : Fin cfg0.N) (r : Fin 2000) (p : Fin 4) (n : Fin 50000)
    (hn : n.val = t.val * 2000 + r.val) : gyB m c t (ix2 r p) = gyA m c (ix2 n p) := by
  obtain ⟨-, -, e0, e1, -⟩ := idx_facts t
  show ((cfg0.win 1).blk t).view.read (Elt Ideal) (V m c (Pipeline.arrRef spec0 1)) (ix2 r p) = V m c main_v15 (ix2 n p)
  rw [View.read_apply]
  show V m c main_v15 _ = V m c main_v15 _
  refine congrArg (V m c main_v15) (funext fun a => Fin.ext ?_)
  match a with
  | ⟨0, _⟩ => show win0_1.index t (0 : Fin 2) * 2000 + 1 * r.val = n.val; rw [e0, hn]; omega
  | ⟨1, _⟩ => show win0_1.index t (1 : Fin 2) * 4 + 1 * p.val = p.val; rw [e1]; omega

theorem gzB_apply (c : Dev nD) (t : Fin cfg0.N) (r : Fin 2000) (p : Fin 4) (n : Fin 50000)
    (hn : n.val = t.val * 2000 + r.val) : gzB m c t (ix2 r p) = gzA m c (ix2 n p) := by
  obtain ⟨-, -, -, -, e0, e1, -⟩ := idx_facts t
  show ((cfg0.win 2).blk t).view.read (Elt Ideal) (V m c (Pipeline.arrRef spec0 2)) (ix2 r p) = V m c main_v17 (ix2 n p)
  rw [View.read_apply]
  show V m c main_v17 _ = V m c main_v17 _
  refine congrArg (V m c main_v17) (funext fun a => Fin.ext ?_)
  match a with
  | ⟨0, _⟩ => show win0_2.index t (0 : Fin 2) * 2000 + 1 * r.val = n.val; rw [e0, hn]; omega
  | ⟨1, _⟩ => show win0_2.index t (1 : Fin 2) * 4 + 1 * p.val = p.val; rw [e1]; omega

/-- Every point's block of a coordinate table is the table. -/
theorem kxB_apply (c : Dev nD) (t : Fin cfg0.N) (k : Fin 64) (l : Fin 16) : kxB m c t (ix2 k l) = kxA m c (ix2 k l) := by
  obtain ⟨-, -, -, -, -, -, e0, e1, -⟩ := idx_facts t
  show ((cfg0.win 3).blk t).view.read (Elt Ideal) (V m c (Pipeline.arrRef spec0 3)) (ix2 k l) = V m c main_v19 (ix2 k l)
  rw [View.read_apply]
  show V m c main_v19 _ = V m c main_v19 _
  refine congrArg (V m c main_v19) (funext fun a => Fin.ext ?_)
  match a with
  | ⟨0, _⟩ => show win0_3.index t (0 : Fin 2) * 64 + 1 * k.val = k.val; rw [e0]; omega
  | ⟨1, _⟩ => show win0_3.index t (1 : Fin 2) * 16 + 1 * l.val = l.val; rw [e1]; omega

theorem kyB_apply (c : Dev nD) (t : Fin cfg0.N) (k : Fin 64) (l : Fin 16) : kyB m c t (ix2 k l) = kyA m c (ix2 k l) := by
  obtain ⟨-, -, -, -, -, -, -, -, e0, e1, -⟩ := idx_facts t
  show ((cfg0.win 4).blk t).view.read (Elt Ideal) (V m c (Pipeline.arrRef spec0 4)) (ix2 k l) = V m c main_v21 (ix2 k l)
  rw [View.read_apply]
  show V m c main_v21 _ = V m c main_v21 _
  refine congrArg (V m c main_v21) (funext fun a => Fin.ext ?_)
  match a with
  | ⟨0, _⟩ => show win0_4.index t (0 : Fin 2) * 64 + 1 * k.val = k.val; rw [e0]; omega
  | ⟨1, _⟩ => show win0_4.index t (1 : Fin 2) * 16 + 1 * l.val = l.val; rw [e1]; omega

theorem kzB_apply (c : Dev nD) (t : Fin cfg0.N) (k : Fin 64) (l : Fin 16) : kzB m c t (ix2 k l) = kzA m c (ix2 k l) := by
  obtain ⟨-, -, -, -, -, -, -, -, -, -, e0, e1, -⟩ := idx_facts t
  show ((cfg0.win 5).blk t).view.read (Elt Ideal) (V m c (Pipeline.arrRef spec0 5)) (ix2 k l) = V m c main_v23 (ix2 k l)
  rw [View.read_apply]
  show V m c main_v23 _ = V m c main_v23 _
  refine congrArg (V m c main_v23) (funext fun a => Fin.ext ?_)
  match a with
  | ⟨0, _⟩ => show win0_5.index t (0 : Fin 2) * 64 + 1 * k.val = k.val; rw [e0]; omega
  | ⟨1, _⟩ => show win0_5.index t (1 : Fin 2) * 16 + 1 * l.val = l.val; rw [e1]; omega

/-! ## One function of the array index -/

/-- The correlation of point n's four gathered normals with kernel k, off the six arrays. -/
def pointAt (c : Dev nD) (n : Fin 50000) (k : Fin 64) : EReal :=
  Cert.Corr.point (fun p => ![gxA m c (ix2 n p), gyA m c (ix2 n p), gzA m c (ix2 n p)])
    (fun l => ![kxA m c (ix2 k l), kyA m c (ix2 k l), kzA m c (ix2 k l)])

/-- The [n, 64] result as one function of the array index. -/
def result2 (c : Dev nD) : Vec Ideal S50000x64 .f32 := fun i => pointAt m c (i 0) (i 1)

/-- What the body leaves at (r, mm) of point t's output block is `pointAt` of row 2000·t + r. -/
theorem blk_point (c : Dev nD) (t : Fin cfg0.N) (r : Fin 2000) (mm : Fin 64) (n : Fin 50000)
    (hn : n.val = t.val * 2000 + r.val) :
    out0_6 (F := Ideal) (gxB m c t) (gyB m c t) (gzB m c t) (kxB m c t) (kyB m c t) (kzB m c t) (ix2 r mm)
      = pointAt m c n mm := by
  refine (out_apply (gxB m c t) (gyB m c t) (gzB m c t) (kxB m c t) (kyB m c t) (kzB m c t) r mm).trans ?_
  unfold pointAt
  refine congrArg₂ Cert.Corr.point (funext fun p => ?_) (funext fun l => ?_)
  · show ![gxB m c t (ix2 r p), gyB m c t (ix2 r p), gzB m c t (ix2 r p)]
        = ![gxA m c (ix2 n p), gyA m c (ix2 n p), gzA m c (ix2 n p)]
    rw [gxB_apply m c t r p n hn, gyB_apply m c t r p n hn, gzB_apply m c t r p n hn]
  · show ![kxB m c t (ix2 mm l), kyB m c t (ix2 mm l), kzB m c t (ix2 mm l)]
        = ![kxA m c (ix2 mm l), kyA m c (ix2 mm l), kzA m c (ix2 mm l)]
    rw [kxB_apply m c t mm l, kyB_apply m c t mm l, kzB_apply m c t mm l]

/-! ## From blocks to the array -/

/-- What point t writes back is block t of `result2`. -/
theorem flushed_eq (c : Dev nD) (t : Fin cfg0.N) :
    (dats m 0 c).flushed 6 t = ((cfg0.win 6).blk t).view.read (Elt Ideal) (result2 m c) := by
  show (cfg0.win 6).cut (grid0.coords t) ((dats m 0 c).after 6 t) = _
  rw [after0_6]
  funext j
  have hj0 : (j 0).val < 2000 := (j 0).isLt
  have hj1 : (j 1).val < 64 := (j 1).isLt
  have ej : (cfg0.win 6).xinj (grid0.coords t) j = ix2 (⟨(j 0).val, hj0⟩ : Fin 2000) (⟨(j 1).val, hj1⟩ : Fin 64) :=
    funext fun a => Fin.ext (by match a with | ⟨0, _⟩ => rfl | ⟨1, _⟩ => rfl)
  obtain ⟨-, -, -, -, -, -, -, -, -, -, -, -, e0, e1⟩ := idx_facts t
  have h0 : ((((cfg0.win 6).blk t).view.emb j) 0).val = t.val * 2000 + (j 0).val := by
    show win0_6.index t (0 : Fin 2) * 2000 + 1 * (j 0).val = _
    rw [e0]; omega
  have h1 : ((((cfg0.win 6).blk t).view.emb j) 1).val = (j 1).val := by
    show win0_6.index t (1 : Fin 2) * 64 + 1 * (j 1).val = _
    rw [e1]; omega
  show out0_6 (F := Ideal) (gxB m c t) (gyB m c t) (gzB m c t) (kxB m c t) (kyB m c t) (kzB m c t)
      ((cfg0.win 6).xinj (grid0.coords t) j) = pointAt m c ((((cfg0.win 6).blk t).view.emb j) 0) ((((cfg0.win 6).blk t).view.emb j) 1)
  rw [ej]
  refine (blk_point m c t ⟨(j 0).val, hj0⟩ ⟨(j 1).val, hj1⟩ ((((cfg0.win 6).blk t).view.emb j) 0) h0).trans ?_
  exact congrArg (pointAt m c ((((cfg0.win 6).blk t).view.emb j) 0)) (Fin.ext h1.symm)

/-- Every row of the result lies in the block of the point that is its quotient by 2000. -/
theorem covered (c : Dev nD) (i : S50000x64.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 64 := (i 1).isLt
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  show i ∈ ((View.whole main_v24).slice (win0_6.rect ⟨(i 0).val / 2000, ht⟩)).set
  rw [View.set_slice_whole, Rect.mem_set_unit]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 64 ≤ (i 1).val
      ∧ (i 1).val < win0_6.index ⟨(i 0).val / 2000, ht⟩ (1 : Fin 2) * 64 + 64
    rw [e1]; omega

/-- The result array after the region. -/
theorem final (c : Dev nD) : (dats m 0 c).arrAt 6 cfg0.N = result2 m c :=
  (dats m 0 c).arrAt_eq_of_cover 6 (result2 m c) (fun t _ => flushed_eq m c t) (covered c)

/-! ## The host operation after the region, and the run -/

/-- The program's result: the [n, 64] array viewed as a flat vector. -/
theorem tail_eq (c : Dev nD) :
    Pipeline.afterTail₀ cfgs (dats m) 0 (V0 m) [hostOps1] c main_v25
      = shapeCast S3200000 (result2 m c) shapeCasts_S50000x64_S3200000 := by
  unfold Pipeline.afterTail₀
  show StableHlo.after hostOps1 _ (Proc.devRef .tc main_v25) = _
  after_results
  exact congrArg (fun x => shapeCast S3200000 x shapeCasts_S50000x64_S3200000)
    ((Pipeline.withArrays_arr spec0 launch0.win.arr_inj c _ _ 6).trans (final m c))

/-- The run, read: the result at the flat view of `result2`, the arguments unchanged. -/
theorem run : θ_run defs (onTc (τ := τ) (main (F := Ideal))) ⟨m, fun _ => 0, ρ⟩ fun r => ∀ c : Dev nD,
      r.2.mem ((c.tc : Thread nD τ).loc main_v25) = shapeCast S3200000 (result2 m c) shapeCasts_S50000x64_S3200000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.LibAfter.lean ====
/-
  A line of host operations run in two stretches (no program is imported): what the buffers hold after a list of
  operations is what they hold after the list's tail, started from what its head leaves. A buffer that only the tail
  writes can then be read over an ARBITRARY valuation left by the head, whose own operations are never opened.
-/
import Idealize.ShloMosaic.Lib.StableHlo.Run

noncomputable section

namespace Cert.LibAfter

open Idealize.ShloMosaic Idealize.ShloMosaic.StableHlo

variable {τ : Topo} {sig : RefSig} {Val : EltTy → Type}

/-- After two lists of operations one behind the other: after the second, from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih _

/-- After a list of operations: after all but its first `n`, from what the first `n` leave. -/
theorem after_take_drop (n : ℕ) (l : List (HloOp τ sig Val)) (V : Valuation τ sig Val) :
    after l V = after (l.drop n) (after (l.take n) V) := by
  rw [← after_append, List.take_append_drop]

end Cert.LibAfter

end
-- ==== Proof.KerHost.lean ====
/-
  The six arrays the region reads, from the gathered array and the kernel table.

  Before the region the program gathers the four normals of every point into a [n, 4, 3] array, cuts it along its last
  axis into the three coordinate arrays [n, 4], and cuts the [64, 16, 3] table of kernel points the same way into three
  [64, 16] tables. So coordinate d of neighbour p of point n is the gathered array at (n, p, d), coordinate d of kernel
  point l of kernel k is the table at (k, l, d), and the kernel's result at (n, k) is the correlation `Corr.point` of
  the gathered array's rows (n, ·, ·) with the table's rows (k, ·, ·). The gather itself is never opened.
-/
import proofs.«100783_j61667140436412_1_alg».proof.Proof.KerArray
import proofs.«100783_j61667140436412_1_alg».proof.Proof.LibAfter

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The gathered normals, [n, 4, 3]: what the first fourteen host operations (two reshapes, the index
    arithmetic, the gather) leave in the gather's result buffer. -/
abbrev gathA (c : Dev nD) : Vec Ideal S50000x4x3 .f32 :=
  StableHlo.after ((hostOps0 (F := Ideal)).take 14) (fun b => m (c, b)) (Proc.devRef .tc main_v11)
/-- The table of kernel points, [64, 16, 3]: the third argument. -/
abbrev tabA (c : Dev nD) : Vec Ideal S64x16x3 .f32 := m ((c.tc : Thread nD τ).loc main_arg2)

/-! ## Each coordinate array is a cut of the gathered array or of the table -/

section Post
-- The last twelve host operations — six cuts along the last axis, each viewed without it — run from ANY contents W.
variable (W : Valuation τ sig (Elt Ideal))

theorem post_keep : StableHlo.after ((hostOps0 (F := Ideal)).drop 14) W (Proc.devRef .tc main_v11)
    = W (Proc.devRef .tc main_v11) := by
  simp only [hostOps0, List.drop_succ_cons, List.drop_zero]
  after_results

theorem post_x : StableHlo.after ((hostOps0 (F := Ideal)).drop 14) W (Proc.devRef .tc main_v13)
    = shapeCast S50000x4 (extractStridedSlice S50000x4x1 ![0, 0, 0] (W (Proc.devRef .tc main_v11) : Vec Ideal S50000x4x3 .f32)
        slices_S50000x4x3_S50000x4x1_0_0_0) shapeCasts_S50000x4x1_S50000x4 := by
  simp only [hostOps0, List.drop_succ_cons, List.drop_zero]
  after_results
  try rfl

theorem post_y : StableHlo.after ((hostOps0 (F := Ideal)).drop 14) W (Proc.devRef .tc main_v15)
    = shapeCast S50000x4 (extractStridedSlice S50000x4x1 ![0, 0, 1] (W (Proc.devRef .tc main_v11) : Vec Ideal S50000x4x3 .f32)
        slices_S50000x4x3_S50000x4x1_0_0_1) shapeCasts_S50000x4x1_S50000x4 := by
  simp only [hostOps0, List.drop_succ_cons, List.drop_zero]
  after_results
  try rfl

theorem post_z : StableHlo.after ((hostOps0 (F := Ideal)).drop 14) W (Proc.devRef .tc main_v17)
    = shapeCast S50000x4 (extractStridedSlice S50000x4x1 ![0, 0, 2] (W (Proc.devRef .tc main_v11) : Vec Ideal S50000x4x3 .f32)
        slices_S50000x4x3_S50000x4x1_0_0_2) shapeCasts_S50000x4x1_S50000x4 := by
  simp only [hostOps0, List.drop_succ_cons, List.drop_zero]
  after_results
  try rfl

end Post

theorem gxA_eq (c : Dev nD) : gxA m c = shapeCast S50000x4
    (extractStridedSlice S50000x4x1 ![0, 0, 0] (gathA m c) slices_S50000x4x3_S50000x4x1_0_0_0) shapeCasts_S50000x4x1_S50000x4 := by
  show StableHlo.after hostOps0 (fun b => m (c, b)) (Proc.devRef .tc main_v13) = _
  rw [Cert.LibAfter.after_take_drop 14 hostOps0, post_x]

theorem gyA_eq (c : Dev nD) : gyA m c = shapeCast S50000x4
    (extractStridedSlice S50000x4x1 ![0, 0, 1] (gathA m c) slices_S50000x4x3_S50000x4x1_0_0_1) shapeCasts_S50000x4x1_S50000x4 := by
  show StableHlo.after hostOps0 (fun b => m (c, b)) (Proc.devRef .tc main_v15) = _
  rw [Cert.LibAfter.after_take_drop 14 hostOps0, post_y]

theorem gzA_eq (c : Dev nD) : gzA m c = shapeCast S50000x4
    (extractStridedSlice S50000x4x1 ![0, 0, 2] (gathA m c) slices_S50000x4x3_S50000x4x1_0_0_2) shapeCasts_S50000x4x1_S50000x4 := by
  show StableHlo.after hostOps0 (fun b => m (c, b)) (Proc.devRef .tc main_v17) = _
  rw [Cert.LibAfter.after_take_drop 14 hostOps0, post_z]

theorem kxA_eq (c : Dev nD) : kxA m c = shapeCast S64x16
    (extractStridedSlice S64x16x1 ![0, 0, 0] (tabA m c) slices_S64x16x3_S64x16x1_0_0_0) shapeCasts_S64x16x1_S64x16 := by
  show StableHlo.after hostOps0 (fun b => m (c, b)) (Proc.devRef .tc main_v19) = _
  after_results
  try rfl

theorem kyA_eq (c : Dev nD) : kyA m c = shapeCast S64x16
    (extractStridedSlice S64x16x1 ![0, 0, 1] (tabA m c) slices_S64x16x3_S64x16x1_0_0_1) shapeCasts_S64x16x1_S64x16 := by
  show StableHlo.after hostOps0 (fun b => m (c, b)) (Proc.devRef .tc main_v21) = _
  after_results
  try rfl

theorem kzA_eq (c : Dev nD) : kzA m c = shapeCast S64x16
    (extractStridedSlice S64x16x1 ![0, 0, 2] (tabA m c) slices_S64x16x3_S64x16x1_0_0_2) shapeCasts_S64x16x1_S64x16 := by
  show StableHlo.after hostOps0 (fun b => m (c, b)) (Proc.devRef .tc main_v23) = _
  after_results
  try rfl

/-! ## The result at (n, k) from the gathered array and the table -/

/-- The kernel's result at (point n, kernel k): the correlation of the gathered array's rows (n, ·, ·) with the
    table's rows (k, ·, ·). -/
theorem pointAt_eq (c : Dev nD) (n : Fin 50000) (k : Fin 64) :
    pointAt m c n k = Cert.Corr.point (fun p d => gathA m c (ix3 n p d)) (fun l d => tabA m c (ix3 k l d)) := by
  unfold pointAt
  refine congrArg₂ Cert.Corr.point (funext fun p => funext fun d => ?_) (funext fun l => funext fun d => ?_)
  · match d with
    | ⟨0, _⟩ =>
      show gxA m c (ix2 n p) = gathA m c (ix3 n p 0)
      rw [gxA_eq]; exact Cert.LibReadAt.lastcut3_apply 0 _ _ _ n p
    | ⟨1, _⟩ =>
      show gyA m c (ix2 n p) = gathA m c (ix3 n p 1)
      rw [gyA_eq]; exact Cert.LibReadAt.lastcut3_apply 1 _ _ _ n p
    | ⟨2, _⟩ =>
      show gzA m c (ix2 n p) = gathA m c (ix3 n p 2)
      rw [gzA_eq]; exact Cert.LibReadAt.lastcut3_apply 2 _ _ _ n p
  · match d with
    | ⟨0, _⟩ =>
      show kxA m c (ix2 k l) = tabA m c (ix3 k l 0)
      rw [kxA_eq]; exact Cert.LibReadAt.lastcut3_apply 0 _ _ _ k l
    | ⟨1, _⟩ =>
      show kyA m c (ix2 k l) = tabA m c (ix3 k l 1)
      rw [kyA_eq]; exact Cert.LibReadAt.lastcut3_apply 1 _ _ _ k l
    | ⟨2, _⟩ =>
      show kzA m c (ix2 k l) = tabA m c (ix3 k l 2)
      rw [kzA_eq]; exact Cert.LibReadAt.lastcut3_apply 2 _ _ _ k l

end Cert.KernelIdeal.Hand

end
-- ==== Proof.RefSide.lean ====
/-
  The reference program's result, read at the ideal values: before its last reshape it holds, at (point r, kernel mm),
  the correlation `Corr.point` of the four gathered normals of point r with the sixteen kernel points of kernel mm.

  The reference squares the gathered array and the table and sums each over its three coordinates, contracts the two
  over that coordinate, broadcasts the three to [n, 4, 64, 16], forms exp(−(|g|² + |k|² − 2 g·k)) / 2 there, sums over
  the neighbour axis and the kernel-point axis together, and divides by 64. Each stage is read at an index by the
  generated lemmas; the joint sum over two axes is read as a double sum (the indices that drop to (r, mm) are one for
  each pair (p, l)). The gathered array itself is never opened: it enters as one function of the two arguments.
-/
import proofs.«100783_j61667140436412_1_alg».proof.Proof.Gen.ReferenceIdeal.Read
import proofs.«100783_j61667140436412_1_alg».proof.Proof.LibReadAt
import proofs.«100783_j61667140436412_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S150000, .f32⟩ : BufTy).Contents (Elt Ideal)) (x1 : (⟨S150000, .i32⟩ : BufTy).Contents (Elt Ideal))
  (x2 : (⟨S64x16x3, .f32⟩ : BufTy).Contents (Elt Ideal))

/-! ## The composed index maps, by coordinates -/

theorem idx_g2 (r : Fin 50000) (p : Fin 4) (mm : Fin 64) (l : Fin 16) (d : Fin 3) :
    idx_main_v13 (idx_main_v14 (idx_main_v19 (ix4 r p mm l))) d = ix3 r p d :=
  funext fun a => Fin.ext (by match a with | ⟨0, _⟩ => rfl | ⟨1, _⟩ => rfl | ⟨2, _⟩ => rfl)

theorem idx_k2 (r : Fin 50000) (p : Fin 4) (mm : Fin 64) (l : Fin 16) (d : Fin 3) :
    idx_main_v16 (idx_main_v18 (idx_main_v20 (ix4 r p mm l))) d = ix3 mm l d :=
  funext fun a => Fin.ext (by match a with | ⟨0, _⟩ => rfl | ⟨1, _⟩ => rfl | ⟨2, _⟩ => rfl)

theorem idx_l (r : Fin 50000) (p : Fin 4) (mm : Fin 64) (l : Fin 16) (d : Fin 3) :
    lidx_main_v17 (ix4 r p mm l) d = ix3 r p d :=
  funext fun a => Fin.ext (by match a with | ⟨0, _⟩ => rfl | ⟨1, _⟩ => rfl | ⟨2, _⟩ => rfl)

theorem idx_r (r : Fin 50000) (p : Fin 4) (mm : Fin 64) (l : Fin 16) (d : Fin 3) :
    ridx_main_v17 (ix4 r p mm l) d = ix3 mm l d :=
  funext fun a => Fin.ext (by match a with | ⟨0, _⟩ => rfl | ⟨1, _⟩ => rfl | ⟨2, _⟩ => rfl)

/-! ## One summand -/

/-- The array summed at the end, at (r, p, mm, l): the summand of normal p of point r against kernel point l of
    kernel mm. -/
theorem summand_eq (r : Fin 50000) (p : Fin 4) (mm : Fin 64) (l : Fin 16) :
    val_main_v28 (F := Ideal) x0 x1 x2 (ix4 r p mm l)
      = Cert.Corr.term (val_main_v11 (F := Ideal) x0 x1 (ix3 r p 0)) (val_main_v11 (F := Ideal) x0 x1 (ix3 r p 1))
          (val_main_v11 (F := Ideal) x0 x1 (ix3 r p 2)) (x2 (ix3 mm l 0)) (x2 (ix3 mm l 1)) (x2 (ix3 mm l 2)) := by
  simp only [val_main_v28_apply, val_main_v27_apply, val_main_cst_3_apply, val_main_v26_apply, val_main_v25_apply,
    val_main_v24_apply, val_main_v21_apply, val_main_v19_apply, val_main_v14_apply, val_main_v13_apply,
    val_main_cst_apply, val_main_v12_apply, val_main_v20_apply, val_main_v18_apply, val_main_v16_apply,
    val_main_cst_1_apply, val_main_v15_apply, val_main_v23_apply, val_main_v22_apply, val_main_cst_2_apply,
    val_main_v17_apply, idx_g2, idx_k2, idx_l, idx_r,
    Ideal.hostDivf_def, Ideal.hostUnary_exp_def, Ideal.hostNegf_def, Ideal.negf_def, Ideal.subf_def, Ideal.addf_def,
    Ideal.mulf_def, Ideal.ofBits_def]
  exact Cert.Corr.term_of_sums (fun d => val_main_v11 (F := Ideal) x0 x1 (ix3 r p d)) (fun d => x2 (ix3 mm l d))

/-! ## The result before the last reshape -/

/-- The joint sum over the neighbour axis and the kernel-point axis, at (r, mm): zero plus the double sum. -/
theorem joint_sum_eq (r : Fin 50000) (mm : Fin 64) :
    val_main_v29 (F := Ideal) x0 x1 x2 (ix2 r mm)
      = Ideal.ofBits .f32 0x00000000#32 + ∑ p : Fin 4, ∑ l : Fin 16, val_main_v28 (F := Ideal) x0 x1 x2 (ix4 r p mm l) := by
  unfold val_main_v29
  generalize val_main_v28 (F := Ideal) x0 x1 x2 = y
  simp only [Host.reduceAdd, Ideal.hostReduceAdd_def]
  exact Cert.LibReadAt.hostReduceAdd_axes13 reducesTo_S50000x4x64x16_S50000x64_d1_3 y _ r mm

/-- The reference's [n, 64] result at (r, mm) is the correlation of point r's gathered normals with kernel mm. -/
theorem result2_apply (r : Fin 50000) (mm : Fin 64) :
    val_main_v31 (F := Ideal) x0 x1 x2 (ix2 r mm)
      = Cert.Corr.point (fun p d => val_main_v11 (F := Ideal) x0 x1 (ix3 r p d)) (fun l d => x2 (ix3 mm l d)) := by
  rw [val_main_v31_apply, val_main_v30_apply, val_main_cst_5_apply, joint_sum_eq]
  exact Cert.Corr.point_of_div _ _ _ (fun p l => summand_eq x0 x1 x2 r p mm l)

end Cert.ReferenceIdeal.RefValue

end
-- ==== Proof.lean ====
/-
  The kernel-correlation layer: a Pallas kernel against its jnp reference, over the extended reals.

  Both programs reshape the flat normals to [n, 3], put each point's own index in front of its three neighbour indices,
  and gather the four normals of every point: a [n, 4, 3] array g, one function of the first two arguments, the same
  in both. From g and the [64, 16, 3] table k of kernel points both compute, for point r and kernel mm,

      out(r, mm) = (1/64) · Σ_{p<4} Σ_{l<16} exp(−(|g(r,p)|² + |k(mm,l)|² − 2 g(r,p)·k(mm,l))) · (1/2),

  and return it as a flat vector. The reference does it on whole arrays: sums of squares over the coordinate axis, one
  contraction over that axis, broadcasts to [n, 4, 64, 16], a joint sum over the neighbour and kernel-point axes, a
  division by 64. The kernel cuts g and k into their coordinate arrays on the host, and on a grid of 25 points handles
  2000 rows at a time: per neighbour p it forms the distances against the three coordinate tables, exponentiates,
  halves, sums over l, and adds the four sums one after the other onto zero before scaling by 1/64; the 25 row blocks
  tile the result. At the ideal values every operation is exact, 1/2 and 1/64 are dyadic, 0 − x is −x and division by
  2 or 64 is multiplication by the reciprocal, so the two results are one function of the arguments at every
  extended-real input: the finiteness precondition is not used. The ideal pass rewrote nothing, so the kernel's
  idealization is its own text.
-/
import proofs.«100783_j61667140436412_1_alg».proof.Defs
import proofs.«100783_j61667140436412_1_alg».proof.Proof.Gen.Kernel
import proofs.«100783_j61667140436412_1_alg».proof.Proof.Gen.Kernel.Skeleton
import proofs.«100783_j61667140436412_1_alg».proof.Proof.Gen.Kernel.Launch
import proofs.«100783_j61667140436412_1_alg».proof.Proof.Gen.Kernel.Points
import proofs.«100783_j61667140436412_1_alg».proof.Proof.Gen.Kernel.Frame
import proofs.«100783_j61667140436412_1_alg».proof.Proof.Gen.KernelIdeal
import proofs.«100783_j61667140436412_1_alg».proof.Proof.Gen.KernelIdeal.Skeleton
import proofs.«100783_j61667140436412_1_alg».proof.Proof.Gen.KernelIdeal.Launch
import proofs.«100783_j61667140436412_1_alg».proof.Proof.Gen.KernelIdeal.Points
import proofs.«100783_j61667140436412_1_alg».proof.Proof.Gen.KernelIdeal.Frame
import proofs.«100783_j61667140436412_1_alg».proof.Proof.Gen.ReferenceIdeal
import proofs.«100783_j61667140436412_1_alg».proof.Proof.Gen.Pre_finite_inputs
import proofs.«100783_j61667140436412_1_alg».proof.Proof.Gen.ReferenceIdeal.Run
import proofs.«100783_j61667140436412_1_alg».proof.Proof.Gen.ReferenceIdeal.Read
import proofs.«100783_j61667140436412_1_alg».proof.Proof.KerHost
import proofs.«100783_j61667140436412_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The gathered normals are one function of the first two arguments in both programs: the kernel program's first
    fourteen host operations are the reference's, operation for operation. -/
theorem gather_eq (m : (ℓ : Loc Cert.KernelIdeal.nD Cert.KernelIdeal.τ Cert.KernelIdeal.sig) → Buf (Elt Ideal) ℓ)
    (c : Dev Cert.KernelIdeal.nD) :
    Cert.KernelIdeal.Hand.gathA m c
      = Cert.ReferenceIdeal.Read.val_main_v11 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after ((Cert.KernelIdeal.Gen.hostOps0 (F := Ideal)).take 14) (fun b => m (c, b))
    (Proc.devRef .tc Cert.KernelIdeal.main_v11) = _
  simp only [Cert.KernelIdeal.Gen.hostOps0, List.take_succ_cons, List.take_zero]
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the flat view of the [n, 64] array that holds, at (r, mm), the correlation of the gathered
    normals of point r with the kernel points of kernel mm. -/
theorem algebraic : Cert.algebraic_KernelIdeal_ReferenceIdeal := by
  intro m ρ m' ρ' _ hagree
  refine ⟨fun c => shapeCast Cert.KernelIdeal.S3200000 (Cert.KernelIdeal.Hand.result2 m c)
    Cert.KernelIdeal.Facts₀.shapeCasts_S50000x64_S3200000, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2]
  have key : Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = Cert.KernelIdeal.Hand.result2 m c := by
    funext j
    obtain ⟨n, k, rfl⟩ : ∃ (n : Fin 50000) (k : Fin 64), j = ix2 n k := ⟨j 0, j 1, eq_ix2 j⟩
    rw [Cert.ReferenceIdeal.RefValue.result2_apply]
    show _ = Cert.KernelIdeal.Hand.pointAt m c n k
    rw [Cert.KernelIdeal.Hand.pointAt_eq, gather_eq]
  exact congrArg (fun x => shapeCast Cert.KernelIdeal.S3200000 x Cert.KernelIdeal.Facts₀.shapeCasts_S50000x64_S3200000) key

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
